-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S49152x512 : Shape := ⟨2, ![49152, 512]⟩
abbrev S1x1 : Shape := ⟨2, ![1, 1]⟩
abbrev S2048x512 : Shape := ⟨2, ![2048, 512]⟩
abbrev S1x2048x512 : Shape := ⟨3, ![1, 2048, 512]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S49152x512, .f32⟩
  | .hbm, ⟨3, _⟩ => ⟨S49152x512, .f32⟩
  | .hbm, ⟨4, _⟩ => ⟨S1x1, .f32⟩
  | .hbm, ⟨5, _⟩ => ⟨S_, .f32⟩
  | .hbm, ⟨6, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x1, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S32x3x512x512_S49152x512 : S32x3x512x512.ShapeCasts S49152x512
  inb_S1x1_S1x1_0_0 : ∀ a, (![0, 0] : Fin 2 → Nat) a + S1x1.size a ≤ S1x1.size a
  h_S1x1 : 0 < S1x1.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  natLt_1_32 : 1 < 32
  shapeCasts_S2048x512_S1x2048x512 : S2048x512.ShapeCasts S1x2048x512
  reduces_S1x2048x512_S1 : S1x2048x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  shapeCasts_S_S_ : S_.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S49152x512.size a
  hwx0_0 : ∀ i : grid0.Coords, EltTy.bits .f32 = 32 ∨ (Rect.block (s := S49152x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S49152x512.size a
  hwx0_1 : ∀ i : grid0.Coords, EltTy.bits .f32 = 32 ∨ (Rect.block (s := S49152x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S32x3x512x512, .f32⟩
  | .hbm, ⟨4, _⟩ => ⟨S32x3x512x512, .i1⟩
  | .hbm, ⟨5, _⟩ => ⟨S32x3x512x512, .f32⟩
  | .hbm, ⟨6, _⟩ => ⟨S32x3x512x512, .f32⟩
  | .hbm, ⟨7, _⟩ => ⟨S32x3x512x512, .f32⟩
  | .hbm, ⟨8, _⟩ => ⟨S32x3x512x512, .f32⟩
  | .hbm, ⟨9, _⟩ => ⟨S_, .f32⟩
  | .hbm, ⟨10, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts₀]

class Facts : Prop extends Facts₀ where

variable [Facts]
-- ==== Proof.CaseValues.lean ====
/-
  What one run of the kernel body leaves in the one-entry output block, in each of its two control cases.

  At the first grid point the body stores the zero block, reads it back, and stores the read-back plus the point's
  partial sum; at every later point it stores the block's running contents plus the point's partial sum. In both cases
  the block ends at the body's one accumulating expression of the two input blocks and of what the block held when
  that expression was evaluated: the zero block at the first point, the contents left by the point before at the others.
-/
import proofs.«162181_j5712306504420_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CaseValues

open Cert.KernelIdeal Cert.KernelIdeal.Gen

variable {F : FTy → Type} [FloatOps F]

theorem hz : (![0, 0] : Fin 2 → Nat) = fun _ => 0 := funext fun a => by fin_cases a <;> rfl

/-- A later point: the block, holding `acc`, ends at the accumulating expression of the input blocks and `acc`. -/
theorem out_later (c : Dev nD) (i : grid0.Coords) (a1 : Memref sig .tc .vmem S2048x512 .f32) (h1 : a1.IsWhole)
    (a2 : Memref sig .tc .vmem S2048x512 .f32) (h2 : a2.IsWhole) (a3 : Memref sig .tc .vmem S1x1 .f32) (h3 : a3.IsWhole)
    (hc : ¬cond0_0 i) (x y : Vec F S2048x512 .f32) (acc : Vec F S1x1 .f32) :
    out0_B_2 c i a1 h1 a2 h2 a3 h3 hc x y acc = k0_pay2 x y acc := by
  unfold out0_B_2
  rw [View.read_writes_eq_canon _ _ _ (cover0_B_2 c i a1 h1 a2 h2 a3 h3 hc x y acc)]
  unfold kernelRun0_B
  dsimp only
  sl_unfold_words
  rw [View.canon_unit_zero hz]
  simp only [View.readAt_eq_ld, h1.read_unread, h2.read_unread, h3.read_unread, View.ld_unit_zero (S := S2048x512) hz,
    View.ld_unit_zero (S := S1x1) hz]

/-- The first point: the block is reset to the zero block and ends at the accumulating expression of the input blocks
    and the zero block. -/
theorem out_first (c : Dev nD) (i : grid0.Coords) (a1 : Memref sig .tc .vmem S2048x512 .f32) (h1 : a1.IsWhole)
    (a2 : Memref sig .tc .vmem S2048x512 .f32) (h2 : a2.IsWhole) (a3 : Memref sig .tc .vmem S1x1 .f32) (h3 : a3.IsWhole)
    (hc : cond0_0 i) (x y : Vec F S2048x512 .f32) :
    out0_A_2 c i a1 h1 a2 h2 a3 h3 hc x y = k0_pay2 x y (k0_pay1 (F := F)) := by
  unfold out0_A_2
  rw [View.read_writes_eq_canon _ _ _ (cover0_A_2 c i a1 h1 a2 h2 a3 h3 hc x y)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S2048x512) hz]

end Cert.KernelIdeal.CaseValues

end
-- ==== Proof.BlockSum.lean ====
/-
  The masked absolute difference and its sum over an array.

  One entry contributes `|x − y| · [y ≠ 0]`, the indicator a one-bit word read as a number. The loss is the sum of the
  contributions over every entry. Addition on the extended reals is commutative and associative, so the sum does not
  depend on how the entries are laid out or grouped: a reshape only re-indexes it, and the sum over a [49152, 512]
  array is the sum, over its 24 blocks of 2048 rows, of each block's sum. No finiteness is needed for either.
-/
import Idealize.ShloMosaic.PureOps.Ideal
import Idealize.ShloMosaic.PureOps.Ideal.Laws
import Idealize.ShloMosaic.Lib.ValueIdx

noncomputable section

namespace Cert.BlockSum

open Idealize.ShloMosaic Idealize.ShloMosaic.ValueIdx

/-! ## One entry -/

/-- One entry's contribution: `|x − y|` times the indicator of `y ≠ 0` (the comparison's bit read unsigned). -/
def term (x y : Ideal .f32) : Ideal .f32 :=
  FloatOps.mulf (FloatOps.absf (FloatOps.subf x y))
    (FloatOps.uitofp .f32 (FloatOps.cmpf .une y (FloatOps.ofBits .f32 0x00000000#32)))

/-- A one-bit word widened to 32 bits has a clear sign bit: read signed it is the bit read unsigned. -/
theorem toInt_setWidth_bit (b : BitVec 1) : (b.setWidth 32).toInt = (b.toNat : ℤ) := by
  revert b; decide

/-- The same contribution spelt with the ORDERED `≠` (on the extended reals nothing is unordered, so it is the same
    comparison) and with the bit widened to a 32-bit word and read signed. -/
theorem term_ordered_widened (x y : Ideal .f32) :
    FloatOps.mulf (FloatOps.absf (FloatOps.subf x y))
      (FloatOps.sitofp .f32 ((FloatOps.cmpf .one y (FloatOps.ofBits .f32 0x00000000#32)).setWidth 32)) = term x y := by
  unfold term
  congr 1
  show ((((FloatOps.cmpf (F := Ideal) .one y (FloatOps.ofBits .f32 0x00000000#32)).setWidth 32).toInt : ℝ) : EReal)
    = (((FloatOps.cmpf (F := Ideal) .une y (FloatOps.ofBits .f32 0x00000000#32)).toNat : ℝ) : EReal)
  rw [toInt_setWidth_bit, Int.cast_natCast]
  rfl

/-! ## Sums under re-indexing -/

/-- A reshape keeps the sum of the entries: it matches the two index sets one to one. -/
theorem sum_shapeCast {M : Type} [AddCommMonoid M] {s t : Shape} (x : s.Idx → M) (h : s.ShapeCasts t) :
    ∑ j : t.Idx, shapeCast t x h j = ∑ k : s.Idx, x k :=
  Equiv.sum_comp (Shape.reshapeEquiv h) x

/-- The flattened array: 49152 rows of 512. -/
abbrev Rows : Shape := ⟨2, ![49152, 512]⟩
/-- One block of it: 2048 rows of 512. -/
abbrev Blk : Shape := ⟨2, ![2048, 512]⟩

/-- Row `r` of block `t` is row `2048 t + r` of the array. -/
def blockRow (t : Fin 24) (r : Fin 2048) : Fin 49152 :=
  ⟨t.val * 2048 + r.val, by have := t.isLt; have := r.isLt; omega⟩

@[simp] theorem blockRow_val (t : Fin 24) (r : Fin 2048) : (blockRow t r).val = t.val * 2048 + r.val := rfl

/-- Every row of the array is exactly one row of exactly one block: quotient and remainder by 2048. -/
def blockRowEquiv : Fin 24 × Fin 2048 ≃ Fin 49152 where
  toFun p := blockRow p.1 p.2
  invFun a := (⟨a.val / 2048, by have := a.isLt; omega⟩, ⟨a.val % 2048, Nat.mod_lt _ (by norm_num)⟩)
  left_inv p := by
    obtain ⟨t, r⟩ := p
    have ht := t.isLt
    have hr := r.isLt
    refine Prod.ext (Fin.ext ?_) (Fin.ext ?_)
    · show (t.val * 2048 + r.val) / 2048 = t.val
      omega
    · show (t.val * 2048 + r.val) % 2048 = r.val
      omega
  right_inv a := by
    apply Fin.ext
    show a.val / 2048 * 2048 + a.val % 2048 = a.val
    omega

/-- The entry at row `r`, column `l` of block `t`, as an entry of the array. -/
abbrev blockIdx (t : Fin 24) (j : Blk.Idx) : Rows.Idx := ix2 (blockRow t (j 0)) (j 1)

/-- The sum over the array is the sum over the blocks of each block's sum. -/
theorem sum_blocks {M : Type*} [AddCommMonoid M] (g : Rows.Idx → M) :
    ∑ i, g i = ∑ t : Fin 24, ∑ j : Blk.Idx, g (blockIdx t j) := by
  rw [sum_idx2, ← Equiv.sum_comp blockRowEquiv, Fintype.sum_prod_type]
  refine Finset.sum_congr rfl fun t _ => ?_
  rw [sum_idx2 (fun j : Blk.Idx => g (blockIdx t j))]
  rfl

/-- The original array: [32, 3, 512, 512]. -/
abbrev Full : Shape := ⟨4, ![32, 3, 512, 512]⟩

/-- THE LAW that joins the two programs: the contributions summed over the [32, 3, 512, 512] arrays are the
    contributions summed block by block over the arrays flattened to [49152, 512]. -/
theorem total_eq_blocks (X Y : Full.Idx → Ideal .f32) (h : Full.ShapeCasts Rows) :
    ∑ i : Full.Idx, term (X i) (Y i)
      = ∑ t : Fin 24, ∑ j : Blk.Idx,
          term (shapeCast Rows X h (blockIdx t j)) (shapeCast Rows Y h (blockIdx t j)) := by
  rw [← sum_shapeCast (fun k => term (X k) (Y k)) h, sum_blocks]
  rfl

end Cert.BlockSum

end
-- ==== Proof.Payload.lean ====
/-
  The body's accumulating expression on the extended reals, read at the output block's one entry: what the block held,
  plus the sum over the point's 2048 × 512 input entries of `|x − y| · [y ≠ 0]`.

  The body casts the elementwise products to [1, 2048, 512] and reduces both long axes into a one-entry vector: on the
  extended reals that is the sum over every entry of the cast vector, and the cast only re-indexes the products.
-/
import proofs.«162181_j5712306504420_1_alg».proof.Proof.Gen.KernelIdeal.Skeleton
import proofs.«162181_j5712306504420_1_alg».proof.Proof.BlockSum
import Idealize.ShloMosaic.Lib.Pipeline.Value
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Cert.BlockSum

/-- The one entry of the reduced vector `v`, cast to [1, 1, 1], extracted, splat over the block and added to it: at the
    block's entry, what the block held plus that entry of `v` (stated over any `v`, so that no reduction is opened). -/
theorem add_extracted (v : FVec Ideal S1 .f32) (acc : Vec Ideal S1x1 .f32) (o : S1x1.Idx) :
    addf acc (broadcast S1x1 (extractAt ![0, 0, 0] (shapeCast S1x1x1 v shapeCasts_S1_S1x1x1) inpos_S1x1x1_p0_0_0)) o
      = acc o + v (Shape.reshapeEquiv shapeCasts_S1_S1x1x1 fun a => ⟨![0, 0, 0] a, inpos_S1x1x1_p0_0_0 a⟩) := rfl

/-- The elementwise product at an entry is that entry's contribution. -/
theorem product_apply (x y : Vec Ideal S2048x512 .f32) (j : S2048x512.Idx) :
    mulf (F := Ideal) (absf (F := Ideal) (subf (F := Ideal) x y))
      (sitofp (F := Ideal) .f32
        (extui 32 (cmpf (F := Ideal) .one y (broadcast S2048x512 (FloatOps.ofBits (F := Ideal) .f32 0x00000000#32))) natLt_1_32)) j
      = term (x j) (y j) :=
  term_ordered_widened (x j) (y j)

/-- The accumulating expression at the block's entry. -/
theorem accumulate_apply (x y : Vec Ideal S2048x512 .f32) (acc : Vec Ideal S1x1 .f32) (o : S1x1.Idx) :
    k0_pay2 (F := Ideal) x y acc o = acc o + ∑ j : S2048x512.Idx, term (x j) (y j) := by
  unfold k0_pay2
  simp only [shapeCast_self]
  rw [add_extracted]
  refine congrArg (acc o + ·) ?_
  refine (Ideal.multiReduction_add_total _ _ _ (fun b => by fin_cases b; rfl) _ _ _).trans ?_
  rw [sum_shapeCast]
  exact Finset.sum_congr rfl fun j _ => product_apply x y j

end Cert.KernelIdeal.Payload

end
-- ==== Proof.Total.lean ====
/-
  What the idealized kernel's run leaves in its result: the zero word plus the partial sums of the 24 row blocks, added
  in grid order.

  The one-entry output block is carried from grid point to grid point: the first point resets it to the zero block and
  adds its block's partial sum, every later point adds its own to what the point before left. So after point `n` the
  block holds `((z + p₀) + p₁) + … + pₙ` (by induction on the point, never by listing the grid). Only the last point
  writes the block back, and the block is the whole [1, 1] result array; the two reshapes that follow hand its one entry
  to the rank-0 result.
-/
import proofs.«162181_j5712306504420_1_alg».proof.Proof.Gen.KernelIdeal.Frame
import proofs.«162181_j5712306504420_1_alg».proof.Proof.CaseValues
import proofs.«162181_j5712306504420_1_alg».proof.Proof.Payload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Total

open Cert.KernelIdeal Cert.KernelIdeal.Gen Cert.BlockSum

variable (m : (ℓ : Loc nD τ sig) → Buf (Elt Ideal) ℓ) (ρ : Dev nD → PrngReg)

/-- The two input blocks of grid point `t`: rows `2048 t … 2048 t + 2047` of the two flattened arrays. -/
abbrev xblk (c : Dev nD) (t : Fin cfg0.N) : Vec Ideal S2048x512 .f32 := iblk m c 0 t
abbrev yblk (c : Dev nD) (t : Fin cfg0.N) : Vec Ideal S2048x512 .f32 := iblk m c 1 t

/-- Point `t`'s partial sum: the contributions of its block's entries. -/
def part (c : Dev nD) (t : Fin cfg0.N) : Ideal .f32 := ∑ j : S2048x512.Idx, term (xblk m c t j) (yblk m c t j)

/-- The word the block is reset to. -/
abbrev z : Ideal .f32 := FloatOps.ofBits .f32 0x00000000#32

/-- The block's entry after point `n`: the reset word plus the partial sums so far, in grid order. -/
def running (c : Dev nD) : (n : ℕ) → n < cfg0.N → Ideal .f32
  | 0, h => z + part m c ⟨0, h⟩
  | n + 1, h => running c n (Nat.lt_of_succ_lt h) + part m c ⟨n + 1, h⟩

/-- What the output's staging buffer holds after point `n` is the running sum, at its one entry. -/
theorem outsAt_eq (c : Dev nD) : ∀ (n : ℕ) (h : n < cfg0.N), outsAt0 m c n h = fun _ => running m c n h
  | 0, h => by
    rw [show outsAt0 m c 0 h = _ from outsAt0_A m c ⟨0, h⟩ rfl, CaseValues.out_first]
    funext o
    rw [Payload.accumulate_apply]
    rfl
  | n + 1, h => by
    have hN : cfg0.N = 24 := N_0
    have hB : ¬(⟨n + 1, h⟩ : Fin cfg0.N).val % 24 = 0 := by dsimp only; omega
    rw [show outsAt0 m c (n + 1) h = _ from outsAt0_B m c ⟨n + 1, h⟩ hB, CaseValues.out_later]
    funext o
    rw [Payload.accumulate_apply]
    show outsAt0 m c n _ o + _ = running m c n _ + _
    rw [outsAt_eq c n]
    rfl

/-- The last grid point. -/
abbrev tLast : Fin cfg0.N := ⟨23, by rw [show cfg0.N = 24 from N_0]; decide⟩

/-- The kernel's total: the running sum after the last point. -/
abbrev total (c : Dev nD) : Ideal .f32 := running m c 23 tLast.isLt

/-- The [1, 1] result array: its one entry the total. -/
abbrev result (c : Dev nD) : Buf (Elt Ideal) ((c : Thread nD τ).loc main_v2) := fun _ => total m c

/-- The one write-back, at the last point, writes the block holding the total: the block is the whole array. -/
theorem flushed_eq (c : Dev nD) (t : Fin cfg0.N) (hf : (cfg0.win 2).flush t = true) :
    (dats m 0 c).flushed 2 t = ((cfg0.win 2).blk t).view.read (Elt Ideal) (result m c) := by
  have hN : cfg0.N = 24 := N_0
  have h23 : t.val = 23 := by have := (flush0_2 t).mp hf; have := t.isLt; omega
  obtain rfl : t = tLast := Fin.ext h23
  show (cfg0.win 2).cut (grid0.coords tLast) ((dats m 0 c).after 2 tLast) = _
  rw [after0_2, outsAt_eq]
  rfl

/-- So the result array ends holding the total: the last point's block covers its one entry. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The two reshapes after the region hand the array's one entry to the rank-0 result. -/
theorem tail_eq (c : Dev nD) :
    Pipeline.afterTail₀ cfgs (dats m) 0 (V0 m) [hostOps1] c main_v4 = fun _ => total m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = result m c :=
    (Pipeline.withArrays_arr spec0 launch0.win.arr_inj c _ _ 2).trans (final m c)
  rw [e]
  rfl

/-- THE RUN, read: the rank-0 result ends at the total, the two arguments as launched. -/
theorem run : θ_run defs (onTc (τ := τ) (main (F := Ideal))) ⟨m, fun _ => 0, ρ⟩ fun r => ∀ c : Dev nD,
      r.2.mem ((c.tc : Thread nD τ).loc main_v4) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

/-! ## The total in closed form, over the flattened arguments -/

/-- The running sum is the reset word plus the sum of the partial sums so far. -/
theorem running_eq (c : Dev nD) : ∀ (n : ℕ) (h : n < cfg0.N),
    running m c n h = z + ∑ t : Fin (n + 1), part m c ⟨t.val, lt_of_lt_of_le t.isLt (Nat.succ_le_of_lt h)⟩
  | 0, h => by
    rw [Fin.sum_univ_one]
    rfl
  | n + 1, h => by
    rw [running, running_eq c n, add_assoc]
    conv_rhs => rw [Fin.sum_univ_castSucc]
    rfl

/-- Window 0 and window 1 at point `t` sit at block row `t`, column 0: decided once over the grid. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0))

/-- The region finds the first argument flattened to [49152, 512]; -/
theorem V_flat0 (c : Dev nD) : (V m c main_v0 : S49152x512.Idx → Ideal .f32)
    = shapeCast S49152x512 (m ((c : Thread nD τ).loc main_arg0)) shapeCasts_S32x3x512x512_S49152x512 := by
  show StableHlo.after hostOps0 (fun b => m (c, b)) (Proc.devRef .tc main_v0) = _
  after_results
  rfl

/-- and the second likewise. -/
theorem V_flat1 (c : Dev nD) : (V m c main_v1 : S49152x512.Idx → Ideal .f32)
    = shapeCast S49152x512 (m ((c : Thread nD τ).loc main_arg1)) shapeCasts_S32x3x512x512_S49152x512 := by
  show StableHlo.after hostOps0 (fun b => m (c, b)) (Proc.devRef .tc main_v1) = _
  after_results
  rfl

/-- The two arguments as the arrays of the claim's shape, and flattened. -/
abbrev X (c : Dev nD) : S32x3x512x512.Idx → Ideal .f32 := m ((c : Thread nD τ).loc main_arg0)
abbrev Y (c : Dev nD) : S32x3x512x512.Idx → Ideal .f32 := m ((c : Thread nD τ).loc main_arg1)

/-- Entry `j` of point `t`'s first input block is entry (2048 t + j₀, j₁) of the flattened first argument; -/
theorem xblk_apply (c : Dev nD) (t : Fin cfg0.N) (j : S2048x512.Idx) :
    xblk m c t j = shapeCast S49152x512 (X m c) shapeCasts_S32x3x512x512_S49152x512 (blockIdx (t.cast N_0) j) := by
  have hi := (index_facts t).1
  unfold xblk iblk
  rw [View.read_apply]
  show V m c main_v0 _ = _
  rw [V_flat0]
  refine congrArg (shapeCast S49152x512 (X m c) shapeCasts_S32x3x512x512_S49152x512) (funext fun a => Fin.ext ?_)
  match a with
  | ⟨0, _⟩ => show win0_0.index t 0 * 2048 + 1 * (j 0).val = t.val * 2048 + (j 0).val; rw [hi.1]; omega
  | ⟨1, _⟩ => show win0_0.index t 1 * 512 + 1 * (j 1).val = (j 1).val; rw [hi.2]; omega

/-- and of its second input block, of the flattened second argument. -/
theorem yblk_apply (c : Dev nD) (t : Fin cfg0.N) (j : S2048x512.Idx) :
    yblk m c t j = shapeCast S49152x512 (Y m c) shapeCasts_S32x3x512x512_S49152x512 (blockIdx (t.cast N_0) j) := by
  have hi := (index_facts t).2
  unfold yblk iblk
  rw [View.read_apply]
  show V m c main_v1 _ = _
  rw [V_flat1]
  refine congrArg (shapeCast S49152x512 (Y m c) shapeCasts_S32x3x512x512_S49152x512) (funext fun a => Fin.ext ?_)
  match a with
  | ⟨0, _⟩ => show win0_1.index t 0 * 2048 + 1 * (j 0).val = t.val * 2048 + (j 0).val; rw [hi.1]; omega
  | ⟨1, _⟩ => show win0_1.index t 1 * 512 + 1 * (j 1).val = (j 1).val; rw [hi.2]; omega

/-- So point `t`'s partial sum is block `t`'s sum of contributions over the flattened arguments. -/
theorem part_eq (c : Dev nD) (t : Fin cfg0.N) :
    part m c t = ∑ j : S2048x512.Idx,
      term (shapeCast S49152x512 (X m c) shapeCasts_S32x3x512x512_S49152x512 (blockIdx (t.cast N_0) j))
        (shapeCast S49152x512 (Y m c) shapeCasts_S32x3x512x512_S49152x512 (blockIdx (t.cast N_0) j)) :=
  Finset.sum_congr rfl fun j _ => by rw [xblk_apply, yblk_apply]

/-- THE KERNEL'S TOTAL: the reset word plus the contributions summed over every entry of the two arguments — the
    blocks' sums added in grid order are, by associativity, the sum over the blocks, which is the sum over the array. -/
theorem total_eq (c : Dev nD) :
    total m c = z + ∑ i : S32x3x512x512.Idx, term (X m c i) (Y m c i) := by
  show running m c 23 _ = _
  rw [running_eq, total_eq_blocks (X m c) (Y m c) shapeCasts_S32x3x512x512_S49152x512]
  refine congrArg (z + ·) ?_
  show ∑ t : Fin 24, part m c ⟨t.val, _⟩ = _
  refine Finset.sum_congr rfl fun t _ => ?_
  rw [part_eq]
  rfl

end Cert.KernelIdeal.Total

end
-- ==== Proof.RefTotal.lean ====
/-
  The reference's result on the extended reals: the zero word plus the sum, over every entry of the [32, 3, 512, 512]
  arrays, of `|x − y| · [y ≠ 0]`.

  Its last operation reduces every axis from the zero word, which on the extended reals is that word plus the sum over
  every entry; the operations before it are elementwise, and at an entry they compute that entry's contribution.
-/
import proofs.«162181_j5712306504420_1_alg».proof.Proof.Gen.ReferenceIdeal.Read
import proofs.«162181_j5712306504420_1_alg».proof.Proof.BlockSum

noncomputable section

open Idealize.ShloMosaic Idealize.ShloMosaic.TcCoe Idealize.SL.Sem

namespace Cert.ReferenceIdeal.Total

open Cert.ReferenceIdeal Cert.ReferenceIdeal.Gen Cert.ReferenceIdeal.Read Cert.BlockSum

/-- The product the reference sums, at an entry: that entry's contribution. -/
theorem product_apply (X Y : (⟨S32x3x512x512, .f32⟩ : BufTy).Contents (Elt Ideal)) (j : S32x3x512x512.Idx) :
    val_main_v5 (F := Ideal) X Y j = term (X j) (Y j) := by
  rw [val_main_v5_apply, val_main_v4_apply, val_main_v3_apply, val_main_v2_apply, val_main_v1_apply, val_main_v0_apply,
    val_main_cst_apply]
  rfl

/-- The reference's result at its one index. -/
theorem result_apply (X Y : (⟨S32x3x512x512, .f32⟩ : BufTy).Contents (Elt Ideal)) (i : S_.Idx) :
    val_main_v6 (F := Ideal) X Y i
      = FloatOps.ofBits (F := Ideal) .f32 0x00000000#32 + ∑ j : S32x3x512x512.Idx, term (X j) (Y j) := by
  rw [val_main_v6_apply, val_main_cst_0_apply]
  exact congrArg (FloatOps.ofBits (F := Ideal) .f32 0x00000000#32 + ·) (Finset.sum_congr rfl fun j _ => product_apply X Y j)

end Cert.ReferenceIdeal.Total

end
-- ==== Proof.lean ====
/-
  The masked L1 loss `Σ |X − Y| · [Y ≠ 0]` over two f32[32, 3, 512, 512] arrays: a kernel that flattens them to
  [49152, 512], walks 24 row blocks of 2048 rows and accumulates each block's partial sum into a one-entry output block,
  against jnp's single sum over every entry.

  On the extended reals both programs compute the zero word plus the sum of the same contributions. The kernel adds its
  24 partial sums in grid order onto the zero word; by associativity that is the zero word plus the sum over the blocks
  of each block's sum, and the blocks partition the rows of the flattened arrays, whose entries are those of the
  original arrays re-indexed. The reference reduces every axis at once from the zero word. The kernel's ordered
  comparison and its bit widened then read signed agree with the reference's unordered comparison and its bit read
  unsigned: on the extended reals nothing is unordered, and a widened bit has a clear sign. Commutativity and
  associativity of addition are all that is used, so the inputs' finiteness is never opened.

  The three frames: the kernel's two are the generated frame runs; the reference's is its generated run with the result
  dropped. The idealization rewrote nothing, so `preserves` is trivial.
-/
import proofs.«162181_j5712306504420_1_alg».proof.Defs
import proofs.«162181_j5712306504420_1_alg».proof.Proof.Gen.Kernel
import proofs.«162181_j5712306504420_1_alg».proof.Proof.Gen.Kernel.Skeleton
import proofs.«162181_j5712306504420_1_alg».proof.Proof.Gen.Kernel.Launch
import proofs.«162181_j5712306504420_1_alg».proof.Proof.Gen.Kernel.Points
import proofs.«162181_j5712306504420_1_alg».proof.Proof.Gen.Kernel.Frame
import proofs.«162181_j5712306504420_1_alg».proof.Proof.Gen.KernelIdeal
import proofs.«162181_j5712306504420_1_alg».proof.Proof.Gen.KernelIdeal.Skeleton
import proofs.«162181_j5712306504420_1_alg».proof.Proof.Gen.KernelIdeal.Launch
import proofs.«162181_j5712306504420_1_alg».proof.Proof.Gen.KernelIdeal.Points
import proofs.«162181_j5712306504420_1_alg».proof.Proof.Gen.KernelIdeal.Frame
import proofs.«162181_j5712306504420_1_alg».proof.Proof.Gen.ReferenceIdeal
import proofs.«162181_j5712306504420_1_alg».proof.Proof.Gen.ReferenceIdeal.Run
import proofs.«162181_j5712306504420_1_alg».proof.Proof.Gen.ReferenceIdeal.Read
import proofs.«162181_j5712306504420_1_alg».proof.Proof.Gen.Pre_finite_inputs
import proofs.«162181_j5712306504420_1_alg».proof.Proof.Total
import proofs.«162181_j5712306504420_1_alg».proof.Proof.RefTotal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's rank-0 result ends at its total and the reference's at its one sum, of
    arguments that agree: both are the zero word plus the contributions summed over every entry. -/
theorem algebraic : Cert.algebraic_KernelIdeal_ReferenceIdeal := by
  intro m ρ m' ρ' _ hagree
  refine ⟨fun c => fun _ => Cert.KernelIdeal.Total.total m c, Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2]
  funext i
  rw [Cert.ReferenceIdeal.Total.result_apply]
  exact (Cert.KernelIdeal.Total.total_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
